-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v2) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16384x4096 : Shape := ⟨2, ![16384, 4096]⟩
abbrev S4096 : Shape := ⟨1, ![4096]⟩
abbrev S_ : Shape := ⟨0, ![]⟩

class Facts : Prop where
  bcast_S_S16384x4096 : S_.BroadcastsInDim S16384x4096 (![] : Fin 0 → Fin S16384x4096.rank)
  reducesTo_S16384x4096_S_d0_1 : S16384x4096.ReducesTo [0, 1] S_
  h_S_ : 0 < S_.numel
  bcast_S_S4096 : S_.BroadcastsInDim S4096 (![] : Fin 0 → Fin S4096.rank)
  reducesTo_S4096_S_d0 : S4096.ReducesTo [0] S_

variable [Facts]

def fn {F : FTy → Type} [FloatOps F] (main_arg0 : FVec F S16384x4096 .f32) (main_arg1 : FVec F S4096 .f32) : IVec S_ 1 :=
  let main_v0 : FVec F S16384x4096 .f32 := Host.absf main_arg0
  let main_cst : FVec F S_ .f32 := constant S_ .f32 0x7F800000#32
  let main_v1 : FVec F S16384x4096 .f32 := broadcastInDim S16384x4096 ![] bcast_S_S16384x4096 main_cst
  let main_v2 : IVec S16384x4096 1 := cmpf .olt main_v0 main_v1
  let main_c : IVec S_ 1 := constantI S_ 1 1#1
  let main_v3 : IVec S_ 1 := (fun x v => Host.reduce IntOp.andi x v reducesTo_S16384x4096_S_d0_1 h_S_) main_v2 main_c
  let main_v4 : FVec F S4096 .f32 := Host.absf main_arg1
  let main_cst_0 : FVec F S_ .f32 := constant S_ .f32 0x7F800000#32
  let main_v5 : FVec F S4096 .f32 := broadcastInDim S4096 ![] bcast_S_S4096 main_cst_0
  let main_v6 : IVec S4096 1 := cmpf .olt main_v4 main_v5
  let main_c_1 : IVec S_ 1 := constantI S_ 1 1#1
  let main_v7 : IVec S_ 1 := (fun x v => Host.reduce IntOp.andi x v reducesTo_S4096_S_d0 h_S_) main_v6 main_c_1
  let main_v8 : IVec S_ 1 := andi main_v3 main_v7
  main_v8
-- ==== Kernel.lean ====
abbrev S16384x4096 : Shape := ⟨2, ![16384, 4096]⟩
abbrev S4096 : Shape := ⟨1, ![4096]⟩
abbrev S1x4096 : Shape := ⟨2, ![1, 4096]⟩
abbrev S512x4096 : Shape := ⟨2, ![512, 4096]⟩

abbrev nBuf : Space → Nat
  | .hbm => 4
  | .vmem => 5
  | .smem => 0
  | _ => 0

abbrev bufTy : (tb : Table) → Fin (tcTables nBuf tb) → BufTy
  | .hbm, ⟨0, _⟩ => ⟨S16384x4096, .f32⟩
  | .hbm, ⟨1, _⟩ => ⟨S4096, .f32⟩
  | .hbm, ⟨2, _⟩ => ⟨S1x4096, .f32⟩
  | .hbm, ⟨3, _⟩ => ⟨S16384x4096, .f32⟩
  | .local _ .vmem, ⟨0, _⟩ => ⟨S512x4096, .f32⟩
  | .local _ .vmem, ⟨1, _⟩ => ⟨S512x4096, .f32⟩
  | .local _ .vmem, ⟨2, _⟩ => ⟨S1x4096, .f32⟩
  | .local _ .vmem, ⟨3, _⟩ => ⟨S512x4096, .f32⟩
  | .local _ .vmem, ⟨4, _⟩ => ⟨S512x4096, .f32⟩
  | _, _ => ⟨S16384x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x4096 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x4096 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

class Facts₀ : Prop where
  shapeCasts_S4096_S1x4096 : S4096.ShapeCasts S1x4096
  inb_S512x4096_S512x4096_0_0 : ∀ a, (![0, 0] : Fin 2 → Nat) a + S512x4096.size a ≤ S512x4096.size a
  h_S512x4096 : 0 < S512x4096.numel
  inb_S1x4096_S1x4096_0_0 : ∀ a, (![0, 0] : Fin 2 → Nat) a + S1x4096.size a ≤ S1x4096.size a
  h_S1x4096 : 0 < S1x4096.numel
  shapeCasts_S1x4096_S1x4096 : S1x4096.ShapeCasts S1x4096
  broadcasts_S1x4096_S512x4096 : S1x4096.Broadcasts S512x4096
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x4096.size a ≤ S16384x4096.size a
  hwx0_0 : ∀ i : grid0.Coords, EltTy.bits .f32 = 32 ∨ (Rect.block (s := S16384x4096) S512x4096.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1x4096.size a ≤ S1x4096.size a
  hwx0_1 : ∀ i : grid0.Coords, EltTy.bits .f32 = 32 ∨ (Rect.block (s := S1x4096) S1x4096.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S512x4096.size a ≤ S16384x4096.size a
  hwx0_2 : ∀ i : grid0.Coords, EltTy.bits .f32 = 32 ∨ (Rect.block (s := S16384x4096) S512x4096.size (cc0_transform_2 i) (hinb0_2 i)).WholeWords (EltTy.packing .f32)

variable [Facts₀]

abbrev win0_0 : Pipeline.Window sig grid0 :=
  Pipeline.Window.ofSpec (Memref.whole main_arg0) S512x4096.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S1x4096.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v1) S512x4096.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S16384x4096 : Shape := ⟨2, ![16384, 4096]⟩
abbrev S4096 : Shape := ⟨1, ![4096]⟩
abbrev S1x4096 : Shape := ⟨2, ![1, 4096]⟩

abbrev nBuf : Space → Nat
  | .hbm => 5
  | .vmem => 0
  | .smem => 0
  | _ => 0

abbrev bufTy : (tb : Table) → Fin (tcTables nBuf tb) → BufTy
  | .hbm, ⟨0, _⟩ => ⟨S16384x4096, .f32⟩
  | .hbm, ⟨1, _⟩ => ⟨S4096, .f32⟩
  | .hbm, ⟨2, _⟩ => ⟨S1x4096, .f32⟩
  | .hbm, ⟨3, _⟩ => ⟨S16384x4096, .f32⟩
  | .hbm, ⟨4, _⟩ => ⟨S16384x4096, .f32⟩
  | _, _ => ⟨S16384x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]

class Facts₀ : Prop where
  bcast_S4096_S1x4096_1 : S4096.BroadcastsInDim S1x4096 (![1] : Fin 1 → Fin S1x4096.rank)
  bcast_S1x4096_S16384x4096_0_1 : S1x4096.BroadcastsInDim S16384x4096 (![0, 1] : Fin 2 → Fin S16384x4096.rank)

variable [Facts₀]

class Facts : Prop extends Facts₀ where

variable [Facts]
-- ==== Proof.RowShift.lean ====
/-
  The value both programs compute: a matrix with every row shifted by one vector.

  For a matrix `x` of 16384 rows and 4096 columns and a vector `p` of 4096 entries, `shift x p` is the matrix whose
  entry in row `r`, column `q` is `x r q + p q`. Each entry of the result depends on exactly one entry of `x` and one
  entry of `p`, joined by a single addition, so nothing about the arithmetic of the extended reals is used: the
  function is stated for any float instance over its own `addf`, and the two programs are compared entry by entry
  only through WHICH entries of `x` and `p` they add.
-/
import Idealize.ShloMosaic.PureOps
import Idealize.ShloMosaic.Lib.ValueIdx

noncomputable section

namespace Cert.RowShift

open Idealize.ShloMosaic Idealize.ShloMosaic.ValueIdx

variable {F : FTy → Type} [FloatOps F]

/-- The matrix's shape: 16384 rows of 4096 entries. -/
abbrev Mat : Shape := ⟨2, ![16384, 4096]⟩
/-- The shifting vector's shape: 4096 entries, one per column. -/
abbrev Row : Shape := ⟨1, ![4096]⟩

/-- Entry `(r, q)` of the shifted matrix is `x (r, q) + p q`: the vector's entry is chosen by the COLUMN alone. -/
def shift (x : Mat.Idx → Elt F .f32) (p : Row.Idx → Elt F .f32) : Mat.Idx → Elt F .f32 :=
  fun i => FloatOps.addf (x i) (p (ix1 (n := 4096) (i 1)))

/-- The shifted matrix read at an index. -/
theorem shift_apply (x : Mat.Idx → Elt F .f32) (p : Row.Idx → Elt F .f32) (i : Mat.Idx) :
    shift x p i = FloatOps.addf (x i) (p (ix1 (n := 4096) (i 1))) := rfl

end Cert.RowShift

end
-- ==== Proof.KernelRows.lean ====
/-
  The kernel's result array is the shifted matrix.

  The kernel walks the matrix in 32 bands of 512 whole rows. At band `t` it holds rows `512 t … 512 t + 511` of `x`
  and the vector `p` laid out as a one-row matrix (the host's reshape before the region: entry `(0, q)` of that
  one-row matrix is `p q`), repeats the row down the band and adds, so entry `(s, q)` of the band it writes back is
  `x (512 t + s, q) + p q`. That is band `t` of `RowShift.shift x p`. Every row `r` lies in exactly the band
  `r / 512`, every band is written back, so after the run the whole result array is `shift x p`.
-/
import proofs.«421358_j90658169684623_3_alg».proof.Proof.Gen.KernelIdeal.Value
import proofs.«421358_j90658169684623_3_alg».proof.Proof.RowShift
import Idealize.ShloMosaic.Lib.Pipeline.Value
import Idealize.ShloMosaic.Lib.StableHlo.Run
import Idealize.ShloMosaic.Lib.Tactic

noncomputable section

open Idealize.ShloMosaic Idealize.ShloMosaic.TcCoe Idealize.SL.Sem
open Idealize.ShloMosaic.Pipeline (Dat)

namespace Cert.KernelIdeal.Rows

open Cert.KernelIdeal Cert.KernelIdeal.Gen Cert.KernelIdeal.Value Cert.RowShift
open Idealize.ShloMosaic.ValueIdx

variable {F : FTy → Type} [FloatOps F]
variable (m : (ℓ : Loc nD τ sig) → Buf (Elt F) ℓ) (ρ : Dev nD → PrngReg)

theorem zero_offsets : (![0, 0] : Fin 2 → Nat) = fun _ => 0 := funext fun a => by fin_cases a <;> rfl

/-! ## The vector as the region finds it -/

/-- Before the region the host lays the vector out as a one-row matrix with the same 4096 entries in order. -/
theorem staged_eq (c : Dev nD) :
    (V m c main_v0 : S1x4096.Idx → Elt F .f32)
      = shapeCast S1x4096 (m ((c : Thread nD τ).loc main_arg1)) shapeCasts_S4096_S1x4096 := by
  dsimp only [Gen.V, Gen.hostOps0]; after_results; rfl

/-- Entry `(0, q)` of that one-row matrix is the vector's entry `q`: both sit at row-major position `q`. -/
theorem staged_apply (c : Dev nD) (k : S1x4096.Idx) (q : Fin 4096) (hq : (k 1).val = q.val) :
    (V m c main_v0 : S1x4096.Idx → Elt F .f32) k
      = (m ((c : Thread nD τ).loc main_arg1) : S4096.Idx → Elt F .f32) (ix1 q) := by
  refine (congrFun (staged_eq m c) k).trans ?_
  refine shapeCast_apply _ _ k (ix1 q) ?_
  rw [Shape.rowMajor_val_one, Shape.rowMajor_val_two]
  have h0 : (k 0).val < 1 := (k 0).isLt
  show q.val = (k 0).val * 4096 + (k 1).val
  omega

/-! ## Which blocks a band reads and writes -/

/-- The printed index maps over the 32 bands: the matrix's input block and the output block are both band `t`
    across all columns, and the one-row matrix is read whole at every band. -/
theorem band_indices : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- WHAT BAND `t` WRITES BACK is band `t` of the shifted matrix: at `(s, q)` inside the band the body adds the
    matrix's entry in row `512 t + s`, column `q`, and the one-row matrix's entry `(0, q)`, which is `p q`. -/
theorem flushed_eq (c : Dev nD) (t : Fin cfg0.N) :
    (dats m 0 c).flushed 2 t
      = ((cfg0.win 2).blk t).view.read (Elt F) (shift (V m c main_arg0) (m ((c : Thread nD τ).loc main_arg1))) := by
  rw [Value.flushed2]
  unfold out0_2
  simp only [View.ld_unit_zero (S := S512x4096) zero_offsets, View.ld_unit_zero (S := S1x4096) zero_offsets]
  obtain ⟨e00, e01, e10, e11, e20, e21⟩ := band_indices t
  funext j
  refine (canon2_eq (iblk m c 0 t) (iblk m c 1 t) j).trans ?_
  show FloatOps.addf (V m c main_arg0 (((cfg0.win 0).blk t).view.emb (ix2_0 j)))
        (V m c main_v0 (((cfg0.win 1).blk t).view.emb (ix2_1 j)))
      = FloatOps.addf (V m c main_arg0 (((cfg0.win 2).blk t).view.emb j))
        (m ((c : Thread nD τ).loc main_arg1) (ix1 (n := 4096) ((((cfg0.win 2).blk t).view.emb j) 1)))
  have hj0 : (j 0).val < 512 := (j 0).isLt
  have hj1 : (j 1).val < 4096 := (j 1).isLt
  have hx : ((cfg0.win 0).blk t).view.emb (ix2_0 j) = ((cfg0.win 2).blk t).view.emb j := by
    funext a; apply Fin.ext
    match a with
    | ⟨0, _⟩ => show win0_0.index t (0 : Fin 2) * 512 + 1 * (j 0).val = win0_2.index t (0 : Fin 2) * 512 + 1 * (j 0).val; omega
    | ⟨1, _⟩ => show win0_0.index t (1 : Fin 2) * 4096 + 1 * (j 1).val = win0_2.index t (1 : Fin 2) * 4096 + 1 * (j 1).val; omega
  have hp : V m c main_v0 (((cfg0.win 1).blk t).view.emb (ix2_1 j))
      = m ((c : Thread nD τ).loc main_arg1) (ix1 (n := 4096) ((((cfg0.win 2).blk t).view.emb j) 1)) := by
    refine staged_apply m c _ _ ?_
    show win0_1.index t (1 : Fin 2) * 4096 + 1 * (j 1).val = win0_2.index t (1 : Fin 2) * 4096 + 1 * (j 1).val
    omega
  rw [hx, hp]

/-! ## The bands tile the matrix -/

/-- An index of the matrix is in band `t`'s block iff each coordinate is in the block's range on its axis. -/
theorem mem_band (t : Fin cfg0.N) (i : S16384x4096.Idx) :
    i ∈ ((cfg0.win 2).blk t).view.set ↔ ∀ a : Fin 2, win0_2.index t a * S512x4096.size a ≤ (i a).val
      ∧ (i a).val < win0_2.index t a * S512x4096.size a + S512x4096.size a := by
  show i ∈ ((View.whole main_v1).slice (win0_2.rect t)).set ↔ _
  rw [View.set_slice_whole, Rect.mem_set_unit]
  exact Iff.rfl

/-- Row `r` lies in band `r / 512`, which is written back: every entry of the matrix is covered. -/
theorem covered (i : S16384x4096.Idx) :
    ∃ t : Fin cfg0.N, (cfg0.win 2).flush t = true ∧ i ∈ ((cfg0.win 2).blk t).view.set := by
  have hi0 : (i 0).val < 16384 := (i 0).isLt
  have hi1 : (i 1).val < 4096 := (i 1).isLt
  have hN : cfg0.N = 32 := N_0
  have hlt : (i 0).val / 512 < cfg0.N := by rw [hN]; omega
  obtain ⟨-, -, -, -, e20, e21⟩ := band_indices ⟨(i 0).val / 512, hlt⟩
  have e20' : win0_2.index ⟨(i 0).val / 512, hlt⟩ (0 : Fin 2) = (i 0).val / 512 := e20
  refine ⟨⟨(i 0).val / 512, hlt⟩, flush0_2 _, ?_⟩
  rw [mem_band]
  intro a
  match a with
  | ⟨0, _⟩ =>
    show win0_2.index ⟨(i 0).val / 512, hlt⟩ (0 : Fin 2) * 512 ≤ (i 0).val
      ∧ (i 0).val < win0_2.index ⟨(i 0).val / 512, hlt⟩ (0 : Fin 2) * 512 + 512
    omega
  | ⟨1, _⟩ =>
    show win0_2.index ⟨(i 0).val / 512, hlt⟩ (1 : Fin 2) * 4096 ≤ (i 1).val
      ∧ (i 1).val < win0_2.index ⟨(i 0).val / 512, hlt⟩ (1 : Fin 2) * 4096 + 4096
    omega

/-! ## The result array, and the run -/

/-- After the last band the result array is the shifted matrix of the two arguments as launched. -/
theorem result_eq (c : Dev nD) :
    (dats m 0 c).arrAt 2 cfg0.N
      = shift (m ((c : Thread nD τ).loc main_arg0)) (m ((c : Thread nD τ).loc main_arg1)) :=
  ((dats m 0 c).arrAt_eq_of_cover 2 (shift (V m c main_arg0) (m ((c : Thread nD τ).loc main_arg1)))
      (fun t _ => flushed_eq m c t) covered).trans
    (congrArg (fun x => shift x (m ((c : Thread nD τ).loc main_arg1))) (V_main_arg0 m c))

/-- Every weakly fair execution of the kernel's program terminates with the result array at the shifted matrix and
    the two arguments unchanged. -/
theorem run : θ_run defs (onTc (τ := τ) (main (F := F))) ⟨m, fun _ => 0, ρ⟩ fun r => ∀ c : Dev nD,
      r.2.mem ((c : Thread nD τ).loc main_v1)
        = shift (m ((c : Thread nD τ).loc main_arg0)) (m ((c : Thread nD τ).loc main_arg1))
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨(h c).1.trans (result_eq m c), (h c).2⟩) (Value.run_blocks m ρ)

end Cert.KernelIdeal.Rows

end
-- ==== Proof.ReferenceRows.lean ====
/-
  The reference computes the shifted matrix.

  The reference lifts the vector `p` to a one-row matrix (entry `(0, q)` is `p q`), repeats that row 16384 times
  (entry `(r, q)` is the one-row matrix's `(0, q)`), and adds the result to `x`. Reading the three stages at an
  index `(r, q)`, innermost last, the vector is read at `q`: the entry is `x (r, q) + p q`, which is
  `RowShift.shift x p` at `(r, q)`.
-/
import proofs.«421358_j90658169684623_3_alg».proof.Proof.Gen.ReferenceIdeal.Read
import proofs.«421358_j90658169684623_3_alg».proof.Proof.RowShift

noncomputable section

namespace Cert.ReferenceIdeal.Rows

open Cert.ReferenceIdeal Cert.ReferenceIdeal.Read Cert.RowShift
open Idealize.ShloMosaic Idealize.ShloMosaic.ValueIdx

variable {F : FTy → Type} [FloatOps F]

/-- Through the two broadcasts, entry `(r, q)` of the repeated matrix reads the vector at `q`: the row coordinate
    is dropped by the second broadcast (the one-row matrix has only row 0) and the first reads column `q`. -/
theorem column_of_index (i : S16384x4096.Idx) : idx_main_v0 (idx_main_v1 i) = ix1 (n := 4096) (i 1) :=
  funext fun a => by match a with | ⟨0, _⟩ => rfl

/-- The reference's last stage is the shifted matrix. -/
theorem stage_eq_shift (x : S16384x4096.Idx → Elt F .f32) (p : S4096.Idx → Elt F .f32) :
    val_main_v2 (F := F) x p = shift x p := by
  funext i
  rw [val_main_v2_apply, val_main_v1_apply, val_main_v0_apply, column_of_index, shift_apply]

end Cert.ReferenceIdeal.Rows

end
-- ==== Proof.lean ====
/-
  A matrix with every row shifted by one vector: the kernel against `x + p[None, :]`.

  Both programs send a matrix `x` of 16384 rows and 4096 columns and a vector `p` of 4096 entries to the matrix
  whose entry `(r, q)` is `x (r, q) + p q` (`RowShift.shift`). The reference lifts `p` to a one-row matrix, repeats
  the row and adds (Proof/ReferenceRows.lean). The kernel lays `p` out as a one-row matrix on the host, then walks
  `x` in 32 bands of 512 rows, adding the repeated row to each band; the bands tile the matrix, so its result array is
  the same function of the arguments (Proof/KernelRows.lean). Each entry is one addition of the same two numbers on
  both sides, so the equality uses no law of the extended reals and never opens the finiteness precondition.
  The three programs' termination and unchanged arguments are the two kernels' frames and the reference's run with
  its result dropped; the idealization rewrote no operation, so `preserves` has nothing to state.
-/
import proofs.«421358_j90658169684623_3_alg».proof.Defs
import proofs.«421358_j90658169684623_3_alg».proof.Proof.Gen.Kernel
import proofs.«421358_j90658169684623_3_alg».proof.Proof.Gen.Kernel.Skeleton
import proofs.«421358_j90658169684623_3_alg».proof.Proof.Gen.Kernel.Launch
import proofs.«421358_j90658169684623_3_alg».proof.Proof.Gen.Kernel.Points
import proofs.«421358_j90658169684623_3_alg».proof.Proof.Gen.Kernel.Frame
import proofs.«421358_j90658169684623_3_alg».proof.Proof.Gen.KernelIdeal
import proofs.«421358_j90658169684623_3_alg».proof.Proof.Gen.KernelIdeal.Skeleton
import proofs.«421358_j90658169684623_3_alg».proof.Proof.Gen.KernelIdeal.Launch
import proofs.«421358_j90658169684623_3_alg».proof.Proof.Gen.KernelIdeal.Points
import proofs.«421358_j90658169684623_3_alg».proof.Proof.Gen.KernelIdeal.Frame
import proofs.«421358_j90658169684623_3_alg».proof.Proof.Gen.ReferenceIdeal
import proofs.«421358_j90658169684623_3_alg».proof.Proof.Gen.Pre_finite_inputs
import proofs.«421358_j90658169684623_3_alg».proof.Proof.Gen.KernelIdeal.Value
import proofs.«421358_j90658169684623_3_alg».proof.Proof.Gen.ReferenceIdeal.Run
import proofs.«421358_j90658169684623_3_alg».proof.Proof.Gen.ReferenceIdeal.Read
import proofs.«421358_j90658169684623_3_alg».proof.Proof.RowShift
import proofs.«421358_j90658169684623_3_alg».proof.Proof.KernelRows
import proofs.«421358_j90658169684623_3_alg».proof.Proof.ReferenceRows
import Idealize.ShloMosaic.Adequacy
import Idealize.ShloMosaic.Init

noncomputable section

namespace Cert.Proof

open Idealize.ShloMosaic Idealize.SL.Sem

/-- The word-level kernel terminates without a fault and leaves `x` and `p` as they were. -/
theorem frame_kernel : Cert.frame_Kernel := fun m ρ _ => Cert.Kernel.Gen.frame m ρ

/-- So does the kernel read over the extended reals. -/
theorem frame_kernel_ideal : Cert.frame_KernelIdeal := fun m ρ _ => Cert.KernelIdeal.Gen.frame m ρ

/-- The reference is three host operations in a row: its run terminates with the arguments unchanged. -/
theorem frame_reference : Cert.frame_ReferenceIdeal := fun m ρ _ =>
  (θ_run Cert.ReferenceIdeal.defs _ _).mono (fun _ h c => (h c).2) (Cert.ReferenceIdeal.Value.run (F := Ideal) m ρ)

/-- From memories that agree on `x` and `p`, both programs end with their result array at `shift x p`. -/
theorem algebraic : Cert.algebraic_KernelIdeal_ReferenceIdeal := by
  intro m ρ m' ρ' _ hagree
  refine ⟨fun c => Cert.RowShift.shift (m ((c.tc : Thread Cert.KernelIdeal.nD Cert.KernelIdeal.τ).loc Cert.KernelIdeal.main_arg0))
      (m ((c.tc : Thread Cert.KernelIdeal.nD Cert.KernelIdeal.τ).loc Cert.KernelIdeal.main_arg1)),
    Cert.KernelIdeal.Rows.run (F := Ideal) m ρ, ?_⟩
  refine (θ_run Cert.ReferenceIdeal.defs _ _).mono (fun _ h c => ⟨(h c).1.trans ?_, (h c).2⟩)
    (Cert.ReferenceIdeal.Value.run (F := Ideal) m' ρ')
  rw [(hagree c).1, (hagree c).2]
  exact (Cert.ReferenceIdeal.Read.val_main_v2_eq _ _).trans (Cert.ReferenceIdeal.Rows.stage_eq_shift _ _)

theorem claim : Cert.Claim :=
  ⟨Cert.Kernel.Gen.facts, Cert.KernelIdeal.Gen.facts, Cert.ReferenceIdeal.Gen.facts, Cert.Pre_finite_inputs.Gen.facts,
    frame_kernel, frame_kernel_ideal, frame_reference, trivial, algebraic⟩

end Cert.Proof

end
